-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S_ : Shape := ⟨0, ![]⟩

class Facts : Prop where
  bcast_S_S4096x20480 : S_.BroadcastsInDim S4096x20480 (![] : Fin 0 → Fin S4096x20480.rank)
  reducesTo_S4096x20480_S_d0_1 : S4096x20480.ReducesTo [0, 1] S_
  h_S_ : 0 < S_.numel
  bcast_S_S2x20480 : S_.BroadcastsInDim S2x20480 (![] : Fin 0 → Fin S2x20480.rank)
  reducesTo_S2x20480_S_d0_1 : S2x20480.ReducesTo [0, 1] S_
  bcast_S_S128x20480 : S_.BroadcastsInDim S128x20480 (![] : Fin 0 → Fin S128x20480.rank)
  reducesTo_S128x20480_S_d0_1 : S128x20480.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg4 : FVec F S128 .f32) (main_arg5 : FVec F S2x128 .f32) (main_v13 : IVec S_ 1) (main_v16 : IVec S128x20480 1) : IVec S_ 1 :=
  let main_c_5 : IVec S_ 1 := constantI S_ 1 1#1
  let main_v17 : IVec S_ 1 := (fun x v => Host.reduce IntOp.andi x v reducesTo_S128x20480_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S4096x20480 .f32) (main_arg1 : FVec F S4096x20480 .f32) (main_arg2 : FVec F S2x20480 .f32) (main_arg3 : FVec F S128x20480 .f32) (main_arg4 : FVec F S128 .f32) (main_arg5 : FVec F S2x128 .f32) : IVec S_ 1 :=
  let main_v0 : FVec F S4096x20480 .f32 := Host.absf main_arg0
  let main_cst : FVec F S_ .f32 := constant S_ .f32 0x7F800000#32
  let main_v1 : FVec F S4096x20480 .f32 := broadcastInDim S4096x20480 ![] bcast_S_S4096x20480 main_cst
  let main_v2 : IVec S4096x20480 1 := cmpf .olt main_v0 main_v1
  let main_c : IVec S_ 1 := constantI S_ 1 1#1
  let main_v3 : IVec S_ 1 := (fun x v => Host.reduce IntOp.andi x v reducesTo_S4096x20480_S_d0_1 h_S_) main_v2 main_c
  let main_v4 : FVec F S4096x20480 .f32 := Host.absf main_arg1
  let main_cst_0 : FVec F S_ .f32 := constant S_ .f32 0x7F800000#32
  let main_v5 : FVec F S4096x20480 .f32 := broadcastInDim S4096x20480 ![] bcast_S_S4096x20480 main_cst_0
  let main_v6 : IVec S4096x20480 1 := cmpf .olt main_v4 main_v5
  let main_c_1 : IVec S_ 1 := constantI S_ 1 1#1
  let main_v7 : IVec S_ 1 := (fun x v => Host.reduce IntOp.andi x v reducesTo_S4096x20480_S_d0_1 h_S_) main_v6 main_c_1
  let main_v8 : IVec S_ 1 := andi main_v3 main_v7
  let main_v9 : FVec F S2x20480 .f32 := Host.absf main_arg2
  let main_cst_2 : FVec F S_ .f32 := constant S_ .f32 0x7F800000#32
  let main_v10 : FVec F S2x20480 .f32 := broadcastInDim S2x20480 ![] bcast_S_S2x20480 main_cst_2
  let main_v11 : IVec S2x20480 1 := cmpf .olt main_v9 main_v10
  let main_c_3 : IVec S_ 1 := constantI S_ 1 1#1
  let main_v12 : IVec S_ 1 := (fun x v => Host.reduce IntOp.andi x v reducesTo_S2x20480_S_d0_1 h_S_) main_v11 main_c_3
  let main_v13 : IVec S_ 1 := andi main_v8 main_v12
  let main_v14 : FVec F S128x20480 .f32 := Host.absf main_arg3
  let main_cst_4 : FVec F S_ .f32 := constant S_ .f32 0x7F800000#32
  let main_v15 : FVec F S128x20480 .f32 := broadcastInDim S128x20480 ![] bcast_S_S128x20480 main_cst_4
  let main_v16 : IVec S128x20480 1 := cmpf .olt main_v14 main_v15
  fn_part1 (F := F) main_arg4 main_arg5 main_v13 main_v16
-- ==== Kernel.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S20480x128 : Shape := ⟨2, ![20480, 128]⟩
abbrev S20480x2 : Shape := ⟨2, ![20480, 2]⟩
abbrev S128x2 : Shape := ⟨2, ![128, 2]⟩
abbrev S1x128 : Shape := ⟨2, ![1, 128]⟩
abbrev S4096x2 : Shape := ⟨2, ![4096, 2]⟩
abbrev S64x20480 : Shape := ⟨2, ![64, 20480]⟩
abbrev S64x2 : Shape := ⟨2, ![64, 2]⟩
abbrev S64x128 : Shape := ⟨2, ![64, 128]⟩

abbrev nBuf : Space → Nat
  | .hbm => 14
  | .vmem => 10
  | .smem => 0
  | _ => 0

abbrev bufTy : (tb : Table) → Fin (tcTables nBuf tb) → BufTy
  | .hbm, ⟨0, _⟩ => ⟨S4096x20480, .f32⟩
  | .hbm, ⟨1, _⟩ => ⟨S4096x20480, .f32⟩
  | .hbm, ⟨2, _⟩ => ⟨S2x20480, .f32⟩
  | .hbm, ⟨3, _⟩ => ⟨S128x20480, .f32⟩
  | .hbm, ⟨4, _⟩ => ⟨S128, .f32⟩
  | .hbm, ⟨5, _⟩ => ⟨S2x128, .f32⟩
  | .hbm, ⟨6, _⟩ => ⟨S20480x128, .f32⟩
  | .hbm, ⟨7, _⟩ => ⟨S20480x128, .bf16⟩
  | .hbm, ⟨8, _⟩ => ⟨S20480x2, .f32⟩
  | .hbm, ⟨9, _⟩ => ⟨S20480x2, .bf16⟩
  | .hbm, ⟨10, _⟩ => ⟨S128x2, .f32⟩
  | .hbm, ⟨11, _⟩ => ⟨S128x2, .bf16⟩
  | .hbm, ⟨12, _⟩ => ⟨S1x128, .f32⟩
  | .hbm, ⟨13, _⟩ => ⟨S4096x2, .f32⟩
  | .local _ .vmem, ⟨0, _⟩ => ⟨S64x20480, .f32⟩
  | .local _ .vmem, ⟨1, _⟩ => ⟨S64x20480, .f32⟩
  | .local _ .vmem, ⟨2, _⟩ => ⟨S64x20480, .f32⟩
  | .local _ .vmem, ⟨3, _⟩ => ⟨S64x20480, .f32⟩
  | .local _ .vmem, ⟨4, _⟩ => ⟨S20480x128, .bf16⟩
  | .local _ .vmem, ⟨5, _⟩ => ⟨S20480x2, .bf16⟩
  | .local _ .vmem, ⟨6, _⟩ => ⟨S128x2, .bf16⟩
  | .local _ .vmem, ⟨7, _⟩ => ⟨S1x128, .f32⟩
  | .local _ .vmem, ⟨8, _⟩ => ⟨S64x2, .f32⟩
  | .local _ .vmem, ⟨9, _⟩ => ⟨S64x2, .f32⟩
  | _, _ => ⟨S4096x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x20480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x20480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20480x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20480x2 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x20480_S20480x128_1_0 : S128x20480.Transposes [1, 0] S20480x128
  bitsLt_bf16_f32 : FTy.bits .bf16 < FTy.bits .f32
  transposes_S2x20480_S20480x2_1_0 : S2x20480.Transposes [1, 0] S20480x2
  transposes_S2x128_S128x2_1_0 : S2x128.Transposes [1, 0] S128x2
  shapeCasts_S128_S1x128 : S128.ShapeCasts S1x128
  inb_S20480x128_S20480x128_0_0 : ∀ a, (![0, 0] : Fin 2 → Nat) a + S20480x128.size a ≤ S20480x128.size a
  h_S20480x128 : 0 < S20480x128.numel
  shapeCasts_S20480x128_S20480x128 : S20480x128.ShapeCasts S20480x128
  inb_S20480x2_S20480x2_0_0 : ∀ a, (![0, 0] : Fin 2 → Nat) a + S20480x2.size a ≤ S20480x2.size a
  h_S20480x2 : 0 < S20480x2.numel
  shapeCasts_S20480x2_S20480x2 : S20480x2.ShapeCasts S20480x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x20480_S64x20480_0_0 : ∀ a, (![0, 0] : Fin 2 → Nat) a + S64x20480.size a ≤ S64x20480.size a
  h_S64x20480 : 0 < S64x20480.numel
  broadcasts_S1x128_S64x128 : S1x128.Broadcasts S64x128
  inb_S64x2_S64x2_0_0 : ∀ a, (![0, 0] : Fin 2 → Nat) a + S64x2.size a ≤ S64x2.size a
  h_S64x2 : 0 < S64x2.numel
  dot_S64x20480_S20480x128_S64x128_1_0_0_1_n_n_wf : DotDims.WF S64x20480 S20480x128 S64x128 [1] [0] [0] [1] [] []
  dot_S64x20480_S20480x2_S64x2_1_0_0_1_n_n_wf : DotDims.WF S64x20480 S20480x2 S64x2 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x20480.size a ≤ S4096x20480.size a
  hwx0_0 : ∀ i : grid0.Coords, EltTy.bits .f32 = 32 ∨ (Rect.block (s := S4096x20480) S64x20480.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x20480.size a ≤ S4096x20480.size a
  hwx0_1 : ∀ i : grid0.Coords, EltTy.bits .f32 = 32 ∨ (Rect.block (s := S4096x20480) S64x20480.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20480x128.size a ≤ S20480x128.size a
  hwx0_2 : ∀ i : grid0.Coords, EltTy.bits .bf16 = 32 ∨ (Rect.block (s := S20480x128) S20480x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20480x2.size a ≤ S20480x2.size a
  hwx0_3 : ∀ i : grid0.Coords, EltTy.bits .bf16 = 32 ∨ (Rect.block (s := S20480x2) S20480x2.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x2.size a ≤ S128x2.size a
  hwx0_4 : ∀ i : grid0.Coords, EltTy.bits .bf16 = 32 ∨ (Rect.block (s := S128x2) S128x2.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x2.size a ≤ S4096x2.size a
  hwx0_6 : ∀ i : grid0.Coords, EltTy.bits .f32 = 32 ∨ (Rect.block (s := S4096x2) S64x2.size (cc0_transform_6 i) (hinb0_6 i)).WholeWords (EltTy.packing .f32)

variable [Facts₀]

def dot_S64x20480_S20480x128_S64x128_1_0_0_1_n_n : DotDims S64x20480 S20480x128 S64x128 where
  lhsContracting := [1]
  rhsContracting := [0]
  lhsNonContracting := [0]
  rhsNonContracting := [1]
  lhsBatch := []
  rhsBatch := []
  wf := dot_S64x20480_S20480x128_S64x128_1_0_0_1_n_n_wf
def dot_S64x20480_S20480x2_S64x2_1_0_0_1_n_n : DotDims S64x20480 S20480x2 S64x2 where
  lhsContracting := [1]
  rhsContracting := [0]
  lhsNonContracting := [0]
  rhsNonContracting := [1]
  lhsBatch := []
  rhsBatch := []
  wf := dot_S64x20480_S20480x2_S64x2_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S64x20480.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x20480.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S20480x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S20480x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S20480x2 : Shape := ⟨2, ![20480, 2]⟩
abbrev S4096x2 : Shape := ⟨2, ![4096, 2]⟩
abbrev S20480x128 : Shape := ⟨2, ![20480, 128]⟩
abbrev S4096x128 : Shape := ⟨2, ![4096, 128]⟩
abbrev S1x128 : Shape := ⟨2, ![1, 128]⟩
abbrev S_ : Shape := ⟨0, ![]⟩
abbrev S128x2 : Shape := ⟨2, ![128, 2]⟩

abbrev nBuf : Space → Nat
  | .hbm => 43
  | .vmem => 0
  | .smem => 0
  | _ => 0

abbrev bufTy : (tb : Table) → Fin (tcTables nBuf tb) → BufTy
  | .hbm, ⟨0, _⟩ => ⟨S4096x20480, .f32⟩
  | .hbm, ⟨1, _⟩ => ⟨S4096x20480, .f32⟩
  | .hbm, ⟨2, _⟩ => ⟨S2x20480, .f32⟩
  | .hbm, ⟨3, _⟩ => ⟨S128x20480, .f32⟩
  | .hbm, ⟨4, _⟩ => ⟨S128, .f32⟩
  | .hbm, ⟨5, _⟩ => ⟨S2x128, .f32⟩
  | .hbm, ⟨6, _⟩ => ⟨S20480x2, .f32⟩
  | .hbm, ⟨7, _⟩ => ⟨S4096x2, .f32⟩
  | .hbm, ⟨8, _⟩ => ⟨S20480x128, .f32⟩
  | .hbm, ⟨9, _⟩ => ⟨S4096x128, .f32⟩
  | .hbm, ⟨10, _⟩ => ⟨S1x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S128x2, .f32⟩
  | .hbm, ⟨22, _⟩ => ⟨S4096x2, .f32⟩
  | .hbm, ⟨23, _⟩ => ⟨S20480x2, .f32⟩
  | .hbm, ⟨24, _⟩ => ⟨S4096x2, .f32⟩
  | .hbm, ⟨25, _⟩ => ⟨S20480x128, .f32⟩
  | .hbm, ⟨26, _⟩ => ⟨S4096x128, .f32⟩
  | .hbm, ⟨27, _⟩ => ⟨S1x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x128, .f32⟩
  | .hbm, ⟨34, _⟩ => ⟨S4096x128, .f32⟩
  | .hbm, ⟨35, _⟩ => ⟨S_, .f32⟩
  | .hbm, ⟨36, _⟩ => ⟨S4096x128, .f32⟩
  | .hbm, ⟨37, _⟩ => ⟨S4096x128, .f32⟩
  | .hbm, ⟨38, _⟩ => ⟨S128x2, .f32⟩
  | .hbm, ⟨39, _⟩ => ⟨S4096x2, .f32⟩
  | .hbm, ⟨40, _⟩ => ⟨S4096x2, .f32⟩
  | .hbm, ⟨41, _⟩ => ⟨S4096x2, .f32⟩
  | .hbm, ⟨42, _⟩ => ⟨S4096x2, .f32⟩
  | _, _ => ⟨S4096x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  transposes_S2x20480_S20480x2_1_0 : S2x20480.Transposes [1, 0] S20480x2
  transposes_S128x20480_S20480x128_1_0 : S128x20480.Transposes [1, 0] S20480x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S2x128_S128x2_1_0 : S2x128.Transposes [1, 0] S128x2
  dot_S4096x20480_S20480x2_S4096x2_1_0_0_1_n_n_wf : DotDims.WF S4096x20480 S20480x2 S4096x2 [1] [0] [0] [1] [] []
  dot_S4096x20480_S20480x128_S4096x128_1_0_0_1_n_n_wf : DotDims.WF S4096x20480 S20480x128 S4096x128 [1] [0] [0] [1] [] []
  dot_S4096x128_S128x2_S4096x2_1_0_0_1_n_n_wf : DotDims.WF S4096x128 S128x2 S4096x2 [1] [0] [0] [1] [] []

variable [Facts₀]

def dot_S4096x20480_S20480x2_S4096x2_1_0_0_1_n_n : DotDims S4096x20480 S20480x2 S4096x2 where
  lhsContracting := [1]
  rhsContracting := [0]
  lhsNonContracting := [0]
  rhsNonContracting := [1]
  lhsBatch := []
  rhsBatch := []
  wf := dot_S4096x20480_S20480x2_S4096x2_1_0_0_1_n_n_wf
def dot_S4096x20480_S20480x128_S4096x128_1_0_0_1_n_n : DotDims S4096x20480 S20480x128 S4096x128 where
  lhsContracting := [1]
  rhsContracting := [0]
  lhsNonContracting := [0]
  rhsNonContracting := [1]
  lhsBatch := []
  rhsBatch := []
  wf := dot_S4096x20480_S20480x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

class Facts : Prop extends Facts₀ where

variable [Facts]
-- ==== Proof.Arith.lean ====
/-
  The arithmetic of one output entry, apart from any program.

  One side of the evaluation (the white or the black feature row `x`) gives two numbers per output
  column: the piece-square term `∑ₖ x k · pw k`, and the head term `∑ₙ clip (∑ₖ x k · aw k n + ab n) · ow n`,
  where `clip y = min 1 (max 0 y)`. The entry is the white side minus the black side. It is written in two
  groupings: `(P_w + H_w) − (P_b + H_b)` and `(P_w − P_b) + (H_w − H_b)`. On the extended reals the two agree
  when the four numbers are real, which holds as soon as the feature rows, the piece-square column and the
  output column are real: a finite sum of products of reals is real, and a clipped value lies in `[0, 1]`
  whatever was clipped, so the head term needs nothing of the accumulator weights or the bias.
-/
import Idealize.ShloMosaic.PureOps.Ideal
import Idealize.ShloMosaic.PureOps.Ideal.Laws
import Idealize.ShloMosaic.PureOps.IdealRules

noncomputable section

namespace Cert.Nnue

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, EReal.coe_zero.symm⟩

/-- A finite sum of reals is real. -/
theorem IsReal.sum {ι : Type} (s : Finset ι) (f : ι → EReal) (h : ∀ k ∈ s, IsReal (f k)) : IsReal (∑ k ∈ s, f k) := by
  classical
  induction s using Finset.induction_on with
  | empty => rw [Finset.sum_empty]; exact IsReal.zero
  | insert a s ha ih =>
    rw [Finset.sum_insert ha]
    exact (h a (Finset.mem_insert_self a s)).add (ih fun k hk => h k (Finset.mem_insert_of_mem hk))

/-- An extended real between 0 and 1 is real. -/
theorem isReal_of_mem_unit {x : EReal} (h0 : 0 ≤ x) (h1 : x ≤ 1) : IsReal x := by
  induction x using EReal.rec with
  | bot => exact absurd h0 (not_le.mpr EReal.bot_lt_zero)
  | top => exact absurd h1 (not_le.mpr (by simpa using EReal.coe_lt_top 1))
  | coe r => exact ⟨r, rfl⟩

/-- Clipping to `[0, 1]`, the two bounds spelt by their single-precision words. -/
def clip01 (y : EReal) : EReal :=
  min (Ideal.ofBits .f32 0x3F800000#32) (max (Ideal.ofBits .f32 0x00000000#32) y)

theorem clip01_eq (y : EReal) : clip01 y = min 1 (max 0 y) := by
  unfold clip01
  rw [Ideal.ofBits_zero_f32, show Ideal.ofBits .f32 0x3F800000#32 = 1 from IdealRules.sign_bit.ideal_onePat .f32]

/-- A clipped value is real, whatever was clipped (an infinity included). -/
theorem clip01_real (y : EReal) : IsReal (clip01 y) := by
  rw [clip01_eq]
  exact isReal_of_mem_unit (le_min zero_le_one (le_max_left _ _)) (min_le_left _ _)

/-- Regrouping a difference of two sums of reals. -/
theorem regroup {a b c d : EReal} (ha : IsReal a) (hb : IsReal b) (hc : IsReal c) (hd : IsReal d) :
    (a + b) - (c + d) = (a - c) + (b - d) := by
  obtain ⟨a, rfl⟩ := ha; obtain ⟨b, rfl⟩ := hb; obtain ⟨c, rfl⟩ := hc; obtain ⟨d, rfl⟩ := hd
  rw [← EReal.coe_add, ← EReal.coe_add, ← EReal.coe_sub, ← EReal.coe_sub, ← EReal.coe_sub, ← EReal.coe_add]
  exact congrArg _ (by ring)

section
variable {ι κ : Type} [Fintype ι] [Fintype κ]

/-- The piece-square term of one feature row against one piece-square column. -/
def psq (x pw : ι → EReal) : EReal := ∑ k, x k * pw k

/-- One clipped accumulator: the row against accumulator column `n`, plus the bias, clipped. -/
def hid (x : ι → EReal) (aw : ι → κ → EReal) (ab : κ → EReal) (n : κ) : EReal :=
  clip01 ((∑ k, x k * aw k n) + ab n)

/-- The head term: the clipped accumulators against one output column. -/
def hd (x : ι → EReal) (aw : ι → κ → EReal) (ab ow : κ → EReal) : EReal := ∑ n, hid x aw ab n * ow n

/-- The entry grouped by side: (white piece-square + white head) − (black piece-square + black head). -/
def entryBySide (xw xb pw : ι → EReal) (aw : ι → κ → EReal) (ab ow : κ → EReal) : EReal :=
  (psq xw pw + hd xw aw ab ow) - (psq xb pw + hd xb aw ab ow)

/-- The entry grouped by term: (piece-square difference) + (head difference). -/
def entryByTerm (xw xb pw : ι → EReal) (aw : ι → κ → EReal) (ab ow : κ → EReal) : EReal :=
  (psq xw pw - psq xb pw) + (hd xw aw ab ow - hd xb aw ab ow)

theorem psq_real {x pw : ι → EReal} (hx : ∀ k, IsReal (x k)) (hp : ∀ k, IsReal (pw k)) : IsReal (psq x pw) :=
  IsReal.sum _ _ fun k _ => (hx k).mul (hp k)

theorem hd_real (x : ι → EReal) (aw : ι → κ → EReal) (ab : κ → EReal) {ow : κ → EReal} (ho : ∀ n, IsReal (ow n)) :
    IsReal (hd x aw ab ow) :=
  IsReal.sum _ _ fun n _ => (clip01_real _).mul (ho n)

/-- The two groupings agree when the feature rows, the piece-square column and the output column are real. -/
theorem entryBySide_eq_entryByTerm {xw xb pw : ι → EReal} (aw : ι → κ → EReal) (ab : κ → EReal) {ow : κ → EReal}
    (hw : ∀ k, IsReal (xw k)) (hb : ∀ k, IsReal (xb k)) (hp : ∀ k, IsReal (pw k)) (ho : ∀ n, IsReal (ow n)) :
    entryBySide xw xb pw aw ab ow = entryByTerm xw xb pw aw ab ow :=
  regroup (psq_real hw hp) (hd_real xw aw ab ho) (psq_real hb hp) (hd_real xb aw ab ho)

end

end Cert.Nnue

end
-- ==== Proof.Finite.lean ====
/-
  What the precondition gives: every entry of the feature matrices, of the piece-square weights and of the
  output weights is a real number.

  The precondition is the conjunction, over the six argument arrays, of "every entry's absolute value is below
  the single-precision infinity". A conjunction of one-bit words that is 1 has both words 1; an all-reduction
  by `and` that is 1 had a 1 at every entry; the infinity's word denotes `⊤`; and an extended real whose
  absolute value `max x (−x)` is below `⊤` is neither infinity, so it is a real.
-/
import proofs.«153821_j43525198577726_1_alg».proof.Proof.Arith
import proofs.«153821_j43525198577726_1_alg».proof.Pre_finite_inputs
import proofs.«153821_j43525198577726_1_alg».proof.Proof.Gen.Pre_finite_inputs
import Idealize.ShloMosaic.Lib.ReduceAll
import Idealize.ShloMosaic.Lib.ValueIdx

noncomputable section

namespace Cert.Nnue.Finite

open Idealize.ShloMosaic Cert.Pre_finite_inputs Cert.Nnue

/-- The rank-0 shape has one index. -/
instance : Subsingleton S_.Idx := ⟨fun _ _ => funext fun d => d.elim0⟩

/-- The word of the single-precision infinity denotes `⊤`. -/
theorem top_word : Ideal.ofBits .f32 0x7F800000#32 = ⊤ := by
  simp [Ideal.ofBits, Ideal.ieee]

/-- An extended real whose absolute value is below `⊤` is a real. -/
theorem isReal_of_abs_lt_top {x : EReal} (h : max x (-x) < ⊤) : IsReal x := by
  induction x using EReal.rec with
  | bot => simp at h
  | top => simp at h
  | coe r => exact ⟨r, rfl⟩

/-- A strict comparison that came out 1 holds. -/
theorem lt_of_cmp_olt {x y : EReal} (h : Ideal.cmp .olt x y = 1#1) : x < y := by
  have h' : BitVec.ofBool (decide (x < y)) = 1#1 := h
  by_contra hn
  rw [decide_eq_false hn] at h'
  exact absurd h' (by decide)

/-- One entry of one array: its comparison against the broadcast infinity came out 1, so it is a real. -/
theorem entry_real {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  have h' : Ideal.cmp .olt (max (x i) (-(x i))) (Ideal.ofBits .f32 0x7F800000#32) = 1#1 := h
  rw [top_word] at h'
  exact isReal_of_abs_lt_top (lt_of_cmp_olt h')

/-- Under the precondition the two feature matrices, the piece-square weights and the output weights hold reals. -/
theorem reals_of_pre (a0 a1 : FVec Ideal S4096x20480 .f32) (a2 : FVec Ideal S2x20480 .f32) (a3 : FVec Ideal S128x20480 .f32)
    (a4 : FVec Ideal S128 .f32) (a5 : FVec Ideal S2x128 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a5 i)) := by
  have h0 := congrFun h ValueIdx.ix0
  dsimp only [fn, fn_part1] at h0
  obtain ⟨h1, e5⟩ := IntOp.andi_eq_one.1 h0
  obtain ⟨h2, _⟩ := IntOp.andi_eq_one.1 h1
  obtain ⟨h3, _⟩ := IntOp.andi_eq_one.1 h2
  obtain ⟨h4, e2⟩ := IntOp.andi_eq_one.1 h3
  obtain ⟨e0, e1⟩ := IntOp.andi_eq_one.1 h4
  exact ⟨fun i => entry_real a0 _ i (Host.reduce_andi_all _ _ _ _ _ e0 i),
    fun i => entry_real a1 _ i (Host.reduce_andi_all _ _ _ _ _ e1 i),
    fun i => entry_real a2 _ i (Host.reduce_andi_all _ _ _ _ _ e2 i),
    fun i => entry_real a5 _ i (Host.reduce_andi_all _ _ _ _ _ e5 i)⟩

end Cert.Nnue.Finite

end
-- ==== Proof.Spec.lean ====
/-
  The result array as one function of the six argument arrays.

  Entry `(i, o)` of the result (position `i` of 4096, output column `o` of 2) is the entry arithmetic applied to:
  row `i` of the white and of the black feature matrix (20480 features each), row `o` of the piece-square
  weights, the accumulator weights read as features × accumulators (entry `(k, n)` is the weight matrix at
  `(n, k)`), the accumulator bias, and row `o` of the output weights (128 accumulators).
-/
import proofs.«153821_j43525198577726_1_alg».proof.Proof.Arith
import Idealize.ShloMosaic.Lib.ValueIdx

noncomputable section

namespace Cert.Nnue

open Idealize.ShloMosaic Idealize.ShloMosaic.ValueIdx

/-- Row `i` of a feature matrix. -/
def featRow (x : (⟨2, ![4096, 20480]⟩ : Shape).Idx → EReal) (i : Fin 4096) : Fin 20480 → EReal := fun k => x (ix2 i k)

/-- Row `o` of the piece-square weights, over the features. -/
def psqRow (pw : (⟨2, ![2, 20480]⟩ : Shape).Idx → EReal) (o : Fin 2) : Fin 20480 → EReal := fun k => pw (ix2 o k)

/-- The accumulator weights as features × accumulators. -/
def accWeights (aw : (⟨2, ![128, 20480]⟩ : Shape).Idx → EReal) : Fin 20480 → Fin 128 → EReal := fun k n => aw (ix2 n k)

/-- The accumulator bias. -/
def accBias (ab : (⟨1, ![128]⟩ : Shape).Idx → EReal) : Fin 128 → EReal := fun n => ab (ix1 n)

/-- Row `o` of the output weights, over the accumulators. -/
def outRow (ow : (⟨2, ![2, 128]⟩ : Shape).Idx → EReal) (o : Fin 2) : Fin 128 → EReal := fun n => ow (ix2 o n)

/-- The result array, each entry grouped by side. -/
def result (w b : (⟨2, ![4096, 20480]⟩ : Shape).Idx → EReal) (pw : (⟨2, ![2, 20480]⟩ : Shape).Idx → EReal)
    (aw : (⟨2, ![128, 20480]⟩ : Shape).Idx → EReal) (ab : (⟨1, ![128]⟩ : Shape).Idx → EReal)
    (ow : (⟨2, ![2, 128]⟩ : Shape).Idx → EReal) : (⟨2, ![4096, 2]⟩ : Shape).Idx → EReal := fun j =>
  entryBySide (featRow w (j 0)) (featRow b (j 0)) (psqRow pw (j 1)) (accWeights aw) (accBias ab) (outRow ow (j 1))

/-- The result array, each entry grouped by term. -/
def resultByTerm (w b : (⟨2, ![4096, 20480]⟩ : Shape).Idx → EReal) (pw : (⟨2, ![2, 20480]⟩ : Shape).Idx → EReal)
    (aw : (⟨2, ![128, 20480]⟩ : Shape).Idx → EReal) (ab : (⟨1, ![128]⟩ : Shape).Idx → EReal)
    (ow : (⟨2, ![2, 128]⟩ : Shape).Idx → EReal) : (⟨2, ![4096, 2]⟩ : Shape).Idx → EReal := fun j =>
  entryByTerm (featRow w (j 0)) (featRow b (j 0)) (psqRow pw (j 1)) (accWeights aw) (accBias ab) (outRow ow (j 1))

/-- With real features, piece-square weights and output weights the two groupings are one array. -/
theorem result_eq_resultByTerm {w b : (⟨2, ![4096, 20480]⟩ : Shape).Idx → EReal} {pw : (⟨2, ![2, 20480]⟩ : Shape).Idx → EReal}
    (aw : (⟨2, ![128, 20480]⟩ : Shape).Idx → EReal) (ab : (⟨1, ![128]⟩ : Shape).Idx → EReal)
    {ow : (⟨2, ![2, 128]⟩ : Shape).Idx → EReal}
    (hw : ∀ i, IsReal (w i)) (hb : ∀ i, IsReal (b i)) (hp : ∀ i, IsReal (pw i)) (ho : ∀ i, IsReal (ow i)) :
    result w b pw aw ab ow = resultByTerm w b pw aw ab ow :=
  funext fun _ => entryBySide_eq_entryByTerm _ _ (fun _ => hw _) (fun _ => hb _) (fun _ => hp _) (fun _ => ho _)

end Cert.Nnue

end
-- ==== Proof.RefSide.lean ====
/-
  The reference computes the result array grouped by term.

  The reference forms, for each side, the piece-square product `x · pwᵀ` and the head product
  `clip (x · awᵀ + ab) · owᵀ` as whole matrices, subtracts black from white term by term, and adds the two
  differences. Read at entry `(i, o)`: each matrix product is a sum over its contracted axis, a transposed
  weight matrix read at `(k, n)` is the weight matrix at `(n, k)`, the bias is broadcast along the positions,
  and the clip is a minimum with 1 of a maximum with 0.
-/
import proofs.«153821_j43525198577726_1_alg».proof.Proof.Spec
import proofs.«153821_j43525198577726_1_alg».proof.Proof.Gen.ReferenceIdeal.Read

noncomputable section

namespace Cert.Nnue.Ref

open Idealize.ShloMosaic Idealize.ShloMosaic.ValueIdx Cert.ReferenceIdeal Cert.ReferenceIdeal.Read Cert.Nnue

/-! The index of each operand element that entry `(i, o)` reads, in coordinates. -/

theorem white_feat_psq (i : S4096x2.Idx) (k : Fin 20480) : lidx_main_v1 i k = ix2 (i 0) k :=
  funext fun a => by match a with | ⟨0, _⟩ => rfl | ⟨1, _⟩ => rfl
theorem white_psq_weight (i : S4096x2.Idx) (k : Fin 20480) : idx_main_v0 (ridx_main_v1 i k) = ix2 (i 1) k :=
  funext fun a => by match a with | ⟨0, _⟩ => rfl | ⟨1, _⟩ => rfl
theorem black_feat_psq (i : S4096x2.Idx) (k : Fin 20480) : lidx_main_v11 i k = ix2 (i 0) k :=
  funext fun a => by match a with | ⟨0, _⟩ => rfl | ⟨1, _⟩ => rfl
theorem black_psq_weight (i : S4096x2.Idx) (k : Fin 20480) : idx_main_v10 (ridx_main_v11 i k) = ix2 (i 1) k :=
  funext fun a => by match a with | ⟨0, _⟩ => rfl | ⟨1, _⟩ => rfl
theorem white_feat_acc (i : S4096x2.Idx) (n : Fin 128) (k : Fin 20480) : lidx_main_v3 (lidx_main_v9 i n) k = ix2 (i 0) k :=
  funext fun a => by match a with | ⟨0, _⟩ => rfl | ⟨1, _⟩ => rfl
theorem white_acc_weight (i : S4096x2.Idx) (n : Fin 128) (k : Fin 20480) : idx_main_v2 (ridx_main_v3 (lidx_main_v9 i n) k) = ix2 n k :=
  funext fun a => by match a with | ⟨0, _⟩ => rfl | ⟨1, _⟩ => rfl
theorem white_bias (i : S4096x2.Idx) (n : Fin 128) : idx_main_v4 (idx_main_v5 (lidx_main_v9 i n)) = ix1 n :=
  funext fun a => by match a with | ⟨0, _⟩ => rfl
theorem white_out_weight (i : S4096x2.Idx) (n : Fin 128) : idx_main_v8 (ridx_main_v9 i n) = ix2 (i 1) n :=
  funext fun a => by match a with | ⟨0, _⟩ => rfl | ⟨1, _⟩ => rfl
theorem black_feat_acc (i : S4096x2.Idx) (n : Fin 128) (k : Fin 20480) : lidx_main_v13 (lidx_main_v19 i n) k = ix2 (i 0) k :=
  funext fun a => by match a with | ⟨0, _⟩ => rfl | ⟨1, _⟩ => rfl
theorem black_acc_weight (i : S4096x2.Idx) (n : Fin 128) (k : Fin 20480) : idx_main_v12 (ridx_main_v13 (lidx_main_v19 i n) k) = ix2 n k :=
  funext fun a => by match a with | ⟨0, _⟩ => rfl | ⟨1, _⟩ => rfl
theorem black_bias (i : S4096x2.Idx) (n : Fin 128) : idx_main_v14 (idx_main_v15 (lidx_main_v19 i n)) = ix1 n :=
  funext fun a => by match a with | ⟨0, _⟩ => rfl
theorem black_out_weight (i : S4096x2.Idx) (n : Fin 128) : idx_main_v18 (ridx_main_v19 i n) = ix2 (i 1) n :=
  funext fun a => by match a with | ⟨0, _⟩ => rfl | ⟨1, _⟩ => rfl

/-- The reference's last stage is the result array grouped by term. -/
theorem stage_eq (x0 x1 : (⟨S4096x20480, .f32⟩ : BufTy).Contents (Elt Ideal)) (x2 : (⟨S2x20480, .f32⟩ : BufTy).Contents (Elt Ideal))
    (x3 : (⟨S128x20480, .f32⟩ : BufTy).Contents (Elt Ideal)) (x4 : (⟨S128, .f32⟩ : BufTy).Contents (Elt Ideal))
    (x5 : (⟨S2x128, .f32⟩ : BufTy).Contents (Elt Ideal)) :
    val_main_v22 (F := Ideal) x0 x1 x2 x3 x4 x5 = resultByTerm x0 x1 x2 x3 x4 x5 := by
  funext i
  rw [val_main_v22_apply, val_main_v20_apply, val_main_v21_apply, val_main_v1_apply, val_main_v11_apply,
    val_main_v9_apply, val_main_v19_apply]
  simp only [val_main_v0_apply, val_main_v10_apply, val_main_v8_apply, val_main_v18_apply,
    val_main_v7_apply, val_main_call0_v4_apply, val_main_call0_v3_apply, val_main_cst_0_apply,
    val_main_call0_v2_apply, val_main_call0_v1_apply, val_main_call0_v0_apply, val_main_cst_apply,
    val_main_v6_apply, val_main_v3_apply, val_main_v2_apply, val_main_v5_apply, val_main_v4_apply,
    val_main_v17_apply, val_main_call1_v4_apply, val_main_call1_v3_apply, val_main_cst_2_apply,
    val_main_call1_v2_apply, val_main_call1_v1_apply, val_main_call1_v0_apply, val_main_cst_1_apply,
    val_main_v16_apply, val_main_v13_apply, val_main_v12_apply, val_main_v15_apply, val_main_v14_apply,
    white_feat_psq, white_psq_weight, black_feat_psq, black_psq_weight, white_feat_acc, white_acc_weight, white_bias,
    white_out_weight, black_feat_acc, black_acc_weight, black_bias, black_out_weight]
  rfl

end Cert.Nnue.Ref

end
-- ==== Proof.Body.lean ====
/-
  One grid point's body, read at an entry of its output block.

  The body loads a block of 64 white and 64 black feature rows and the four weight arrays as the region finds
  them (the accumulator, piece-square and output weights already transposed, the bias as one row), and stores
  a 64 × 2 block. Each of its three matrix products into a zero accumulator is, at an entry, the sum over the
  contracted axis of the operands' products; the bias row is broadcast over the 64 rows; the clip is a minimum
  with 1 of a maximum with 0; a change of float format is the identity. So entry `(p, q)` of the stored block
  is the entry arithmetic, grouped by side, of row `p` of the two feature blocks against the weights.
-/
import proofs.«153821_j43525198577726_1_alg».proof.Proof.Arith
import proofs.«153821_j43525198577726_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Nnue.Body

open Idealize.ShloMosaic Idealize.ShloMosaic.ValueIdx Cert.KernelIdeal Cert.KernelIdeal.Gen Cert.Nnue

/-! The accumulator product: a 64 × 20480 block of feature rows against the 20480 × 128 transposed accumulator weights. -/

theorem acc_lhs_0 (i : S64x128.Idx) (q : dot_S64x20480_S20480x128_S64x128_1_0_0_1_n_n.contr.Idx) :
    (dot_S64x20480_S20480x128_S64x128_1_0_0_1_n_n.lhsIdx i q 0).val = (i 0).val := by
  unfold DotDims.lhsIdx
  rw [dif_neg (show ¬(0 : Fin S64x20480.rank) ∈ dot_S64x20480_S20480x128_S64x128_1_0_0_1_n_n.lhsBatch by decide), dif_pos (show (0 : Fin S64x20480.rank) ∈ dot_S64x20480_S20480x128_S64x128_1_0_0_1_n_n.lhsNonContracting by decide)]
  rfl
theorem acc_lhs_1 (i : S64x128.Idx) (q : dot_S64x20480_S20480x128_S64x128_1_0_0_1_n_n.contr.Idx) :
    (dot_S64x20480_S20480x128_S64x128_1_0_0_1_n_n.lhsIdx i q 1).val = (q ⟨0, by decide⟩).val :=
  dot_S64x20480_S20480x128_S64x128_1_0_0_1_n_n.lhsIdx_val_of_single rfl i q
theorem acc_rhs_0 (i : S64x128.Idx) (q : dot_S64x20480_S20480x128_S64x128_1_0_0_1_n_n.contr.Idx) :
    (dot_S64x20480_S20480x128_S64x128_1_0_0_1_n_n.rhsIdx i q 0).val = (q ⟨0, by decide⟩).val :=
  dot_S64x20480_S20480x128_S64x128_1_0_0_1_n_n.rhsIdx_val_of_single rfl i q
theorem acc_rhs_1 (i : S64x128.Idx) (q : dot_S64x20480_S20480x128_S64x128_1_0_0_1_n_n.contr.Idx) :
    (dot_S64x20480_S20480x128_S64x128_1_0_0_1_n_n.rhsIdx i q 1).val = (i 1).val := by
  unfold DotDims.rhsIdx
  rw [dif_neg (show ¬(1 : Fin S20480x128.rank) ∈ dot_S64x20480_S20480x128_S64x128_1_0_0_1_n_n.rhsBatch by decide), dif_pos (show (1 : Fin S20480x128.rank) ∈ dot_S64x20480_S20480x128_S64x128_1_0_0_1_n_n.rhsNonContracting by decide)]
  rfl

theorem acc_apply {φ₁ φ₂ : FTy} (x : FVec Ideal S64x20480 φ₁) (w : FVec Ideal S20480x128 φ₂) (p : Fin 64) (c : Fin 128) :
    matmul dot_S64x20480_S20480x128_S64x128_1_0_0_1_n_n none x w (constant S64x128 .f32 0x00000000#32) (ix2 p c)
      = ∑ k : Fin 20480, x (ix2 p k) * w (ix2 k c) := by
  simp only [matmul]
  rw [Ideal.matmul_constant_zero_apply, ← Equiv.sum_comp (ValueIdx.contrEquiv1 dot_S64x20480_S20480x128_S64x128_1_0_0_1_n_n 20480 rfl rfl).symm]
  refine Finset.sum_congr rfl fun k _ => ?_
  have hk := ValueIdx.contrEquiv1_symm_val dot_S64x20480_S20480x128_S64x128_1_0_0_1_n_n 20480 rfl rfl k
  have el : dot_S64x20480_S20480x128_S64x128_1_0_0_1_n_n.lhsIdx (ix2 p c) ((ValueIdx.contrEquiv1 dot_S64x20480_S20480x128_S64x128_1_0_0_1_n_n 20480 rfl rfl).symm k) = ix2 p k := funext fun a => Fin.ext (by
    match a with
    | ⟨0, _⟩ => exact acc_lhs_0 _ _
    | ⟨1, _⟩ => exact (acc_lhs_1 _ _).trans hk)
  have er : dot_S64x20480_S20480x128_S64x128_1_0_0_1_n_n.rhsIdx (ix2 p c) ((ValueIdx.contrEquiv1 dot_S64x20480_S20480x128_S64x128_1_0_0_1_n_n 20480 rfl rfl).symm k) = ix2 k c := funext fun a => Fin.ext (by
    match a with
    | ⟨0, _⟩ => exact (acc_rhs_0 _ _).trans hk
    | ⟨1, _⟩ => exact acc_rhs_1 _ _)
  rw [el, er]

/-! The piece-square product: the same block of feature rows against the 20480 × 2 transposed piece-square weights. -/

theorem psqt_lhs_0 (i : S64x2.Idx) (q : dot_S64x20480_S20480x2_S64x2_1_0_0_1_n_n.contr.Idx) :
    (dot_S64x20480_S20480x2_S64x2_1_0_0_1_n_n.lhsIdx i q 0).val = (i 0).val := by
  unfold DotDims.lhsIdx
  rw [dif_neg (show ¬(0 : Fin S64x20480.rank) ∈ dot_S64x20480_S20480x2_S64x2_1_0_0_1_n_n.lhsBatch by decide), dif_pos (show (0 : Fin S64x20480.rank) ∈ dot_S64x20480_S20480x2_S64x2_1_0_0_1_n_n.lhsNonContracting by decide)]
  rfl
theorem psqt_lhs_1 (i : S64x2.Idx) (q : dot_S64x20480_S20480x2_S64x2_1_0_0_1_n_n.contr.Idx) :
    (dot_S64x20480_S20480x2_S64x2_1_0_0_1_n_n.lhsIdx i q 1).val = (q ⟨0, by decide⟩).val :=
  dot_S64x20480_S20480x2_S64x2_1_0_0_1_n_n.lhsIdx_val_of_single rfl i q
theorem psqt_rhs_0 (i : S64x2.Idx) (q : dot_S64x20480_S20480x2_S64x2_1_0_0_1_n_n.contr.Idx) :
    (dot_S64x20480_S20480x2_S64x2_1_0_0_1_n_n.rhsIdx i q 0).val = (q ⟨0, by decide⟩).val :=
  dot_S64x20480_S20480x2_S64x2_1_0_0_1_n_n.rhsIdx_val_of_single rfl i q
theorem psqt_rhs_1 (i : S64x2.Idx) (q : dot_S64x20480_S20480x2_S64x2_1_0_0_1_n_n.contr.Idx) :
    (dot_S64x20480_S20480x2_S64x2_1_0_0_1_n_n.rhsIdx i q 1).val = (i 1).val := by
  unfold DotDims.rhsIdx
  rw [dif_neg (show ¬(1 : Fin S20480x2.rank) ∈ dot_S64x20480_S20480x2_S64x2_1_0_0_1_n_n.rhsBatch by decide), dif_pos (show (1 : Fin S20480x2.rank) ∈ dot_S64x20480_S20480x2_S64x2_1_0_0_1_n_n.rhsNonContracting by decide)]
  rfl

theorem psqt_apply {φ₁ φ₂ : FTy} (x : FVec Ideal S64x20480 φ₁) (w : FVec Ideal S20480x2 φ₂) (p : Fin 64) (c : Fin 2) :
    matmul dot_S64x20480_S20480x2_S64x2_1_0_0_1_n_n none x w (constant S64x2 .f32 0x00000000#32) (ix2 p c)
      = ∑ k : Fin 20480, x (ix2 p k) * w (ix2 k c) := by
  simp only [matmul]
  rw [Ideal.matmul_constant_zero_apply, ← Equiv.sum_comp (ValueIdx.contrEquiv1 dot_S64x20480_S20480x2_S64x2_1_0_0_1_n_n 20480 rfl rfl).symm]
  refine Finset.sum_congr rfl fun k _ => ?_
  have hk := ValueIdx.contrEquiv1_symm_val dot_S64x20480_S20480x2_S64x2_1_0_0_1_n_n 20480 rfl rfl k
  have el : dot_S64x20480_S20480x2_S64x2_1_0_0_1_n_n.lhsIdx (ix2 p c) ((ValueIdx.contrEquiv1 dot_S64x20480_S20480x2_S64x2_1_0_0_1_n_n 20480 rfl rfl).symm k) = ix2 p k := funext fun a => Fin.ext (by
    match a with
    | ⟨0, _⟩ => exact psqt_lhs_0 _ _
    | ⟨1, _⟩ => exact (psqt_lhs_1 _ _).trans hk)
  have er : dot_S64x20480_S20480x2_S64x2_1_0_0_1_n_n.rhsIdx (ix2 p c) ((ValueIdx.contrEquiv1 dot_S64x20480_S20480x2_S64x2_1_0_0_1_n_n 20480 rfl rfl).symm k) = ix2 k c := funext fun a => Fin.ext (by
    match a with
    | ⟨0, _⟩ => exact (psqt_rhs_0 _ _).trans hk
    | ⟨1, _⟩ => exact psqt_rhs_1 _ _)
  rw [el, er]

/-! The head product: the 64 × 128 clipped accumulators against the 128 × 2 transposed output weights. -/

theorem head_lhs_0 (i : S64x2.Idx) (q : dot_S64x128_S128x2_S64x2_1_0_0_1_n_n.contr.Idx) :
    (dot_S64x128_S128x2_S64x2_1_0_0_1_n_n.lhsIdx i q 0).val = (i 0).val := by
  unfold DotDims.lhsIdx
  rw [dif_neg (show ¬(0 : Fin S64x128.rank) ∈ dot_S64x128_S128x2_S64x2_1_0_0_1_n_n.lhsBatch by decide), dif_pos (show (0 : Fin S64x128.rank) ∈ dot_S64x128_S128x2_S64x2_1_0_0_1_n_n.lhsNonContracting by decide)]
  rfl
theorem head_lhs_1 (i : S64x2.Idx) (q : dot_S64x128_S128x2_S64x2_1_0_0_1_n_n.contr.Idx) :
    (dot_S64x128_S128x2_S64x2_1_0_0_1_n_n.lhsIdx i q 1).val = (q ⟨0, by decide⟩).val :=
  dot_S64x128_S128x2_S64x2_1_0_0_1_n_n.lhsIdx_val_of_single rfl i q
theorem head_rhs_0 (i : S64x2.Idx) (q : dot_S64x128_S128x2_S64x2_1_0_0_1_n_n.contr.Idx) :
    (dot_S64x128_S128x2_S64x2_1_0_0_1_n_n.rhsIdx i q 0).val = (q ⟨0, by decide⟩).val :=
  dot_S64x128_S128x2_S64x2_1_0_0_1_n_n.rhsIdx_val_of_single rfl i q
theorem head_rhs_1 (i : S64x2.Idx) (q : dot_S64x128_S128x2_S64x2_1_0_0_1_n_n.contr.Idx) :
    (dot_S64x128_S128x2_S64x2_1_0_0_1_n_n.rhsIdx i q 1).val = (i 1).val := by
  unfold DotDims.rhsIdx
  rw [dif_neg (show ¬(1 : Fin S128x2.rank) ∈ dot_S64x128_S128x2_S64x2_1_0_0_1_n_n.rhsBatch by decide), dif_pos (show (1 : Fin S128x2.rank) ∈ dot_S64x128_S128x2_S64x2_1_0_0_1_n_n.rhsNonContracting by decide)]
  rfl

theorem head_apply {φ₁ φ₂ : FTy} (x : FVec Ideal S64x128 φ₁) (w : FVec Ideal S128x2 φ₂) (p : Fin 64) (c : Fin 2) :
    matmul dot_S64x128_S128x2_S64x2_1_0_0_1_n_n none x w (constant S64x2 .f32 0x00000000#32) (ix2 p c)
      = ∑ k : Fin 128, x (ix2 p k) * w (ix2 k c) := by
  simp only [matmul]
  rw [Ideal.matmul_constant_zero_apply, ← Equiv.sum_comp (ValueIdx.contrEquiv1 dot_S64x128_S128x2_S64x2_1_0_0_1_n_n 128 rfl rfl).symm]
  refine Finset.sum_congr rfl fun k _ => ?_
  have hk := ValueIdx.contrEquiv1_symm_val dot_S64x128_S128x2_S64x2_1_0_0_1_n_n 128 rfl rfl k
  have el : dot_S64x128_S128x2_S64x2_1_0_0_1_n_n.lhsIdx (ix2 p c) ((ValueIdx.contrEquiv1 dot_S64x128_S128x2_S64x2_1_0_0_1_n_n 128 rfl rfl).symm k) = ix2 p k := funext fun a => Fin.ext (by
    match a with
    | ⟨0, _⟩ => exact head_lhs_0 _ _
    | ⟨1, _⟩ => exact (head_lhs_1 _ _).trans hk)
  have er : dot_S64x128_S128x2_S64x2_1_0_0_1_n_n.rhsIdx (ix2 p c) ((ValueIdx.contrEquiv1 dot_S64x128_S128x2_S64x2_1_0_0_1_n_n 128 rfl rfl).symm k) = ix2 k c := funext fun a => Fin.ext (by
    match a with
    | ⟨0, _⟩ => exact (head_rhs_0 _ _).trans hk
    | ⟨1, _⟩ => exact head_rhs_1 _ _)
  rw [el, er]

/-- Entry `(p, q)` of the block the body stores. -/
theorem payload_apply (v0 : Vec Ideal S20480x128 .bf16) (v2 : Vec Ideal S20480x2 .bf16) (v4 : Vec Ideal S128x2 .bf16)
    (v6 : Vec Ideal S1x128 .f32) (v8 v21 : Vec Ideal S64x20480 .f32) (p : Fin 64) (q : Fin 2) :
    k0_pay1 (F := Ideal) v0 v2 v4 v6 v8 v21 (ix2 p q)
      = entryBySide (fun k : Fin 20480 => v8 (ix2 p k)) (fun k : Fin 20480 => v21 (ix2 p k)) (fun k : Fin 20480 => v2 (ix2 k q))
          (fun (k : Fin 20480) (n : Fin 128) => v0 (ix2 k n)) (fun n : Fin 128 => v6 (ix2 (0 : Fin 1) n)) (fun n : Fin 128 => v4 (ix2 n q)) := by
  unfold k0_pay1
  simp only [shapeCast_self]
  rw [subf_apply, addf_apply, addf_apply, psqt_apply, psqt_apply, head_apply, head_apply]
  simp only [truncf_apply, minimumf_apply, maximumf_apply, addf_apply, broadcast_apply, acc_apply, broadcastTo_1b_ab_apply]
  rfl

end Cert.Nnue.Body

end
-- ==== Proof.Blocks.lean ====
/-
  From the grid points' blocks to the whole result array.

  The grid has 64 points. Point `t` is handed rows `64·t … 64·t + 63` of the white and of the black feature
  matrix, and the four weight arrays whole; these the host prepared before the region: the accumulator,
  piece-square and output weights transposed (a change of float format is the identity), the bias as a single
  row. It writes back rows `64·t … 64·t + 63` of the 4096 × 2 result. So entry `(p, q)` of what point `t` writes
  is the specification's entry `(64·t + p, q)`, and since row `r` lies in the block of point `r / 64`, the blocks
  cover the array: after the run the result array is the specification.
-/
import proofs.«153821_j43525198577726_1_alg».proof.Proof.Spec
import proofs.«153821_j43525198577726_1_alg».proof.Proof.Body
import proofs.«153821_j43525198577726_1_alg».proof.Proof.Gen.KernelIdeal.Value
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Nnue.Kernel

open Cert.KernelIdeal Cert.KernelIdeal.Gen Cert.KernelIdeal.Value Cert.Nnue

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the two feature windows and the result window move with
    the point along the rows; the four weight windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 64 := lt_of_lt_of_eq t.isLt N_0

/-! ## The weight arrays as the region finds them -/

/-- The transposed accumulator weights at `(k, n)` are the accumulator weights at `(n, k)`. -/
theorem accT_apply (c : Dev nD) (k : Fin 20480) (n : Fin 128) :
    (V m c main_v1 : S20480x128.Idx → EReal) (ix2 k n) = (m ((c : Thread nD τ).loc main_arg3)) (ix2 n k) := by
  have e : (V m c main_v1 : S20480x128.Idx → EReal)
      = truncf (F := Ideal) .bf16 (transpose S20480x128 [1, 0] (m ((c : Thread nD τ).loc main_arg3)) transposes_S128x20480_S20480x128_1_0) bitsLt_bf16_f32 := by
    dsimp only [V, hostOps0]; after_results
  rw [e]
  exact transpose_ix2_apply (m ((c : Thread nD τ).loc main_arg3)) transposes_S128x20480_S20480x128_1_0 k n

/-- The transposed piece-square weights at `(k, o)` are the piece-square weights at `(o, k)`. -/
theorem psqT_apply (c : Dev nD) (k : Fin 20480) (o : Fin 2) :
    (V m c main_v3 : S20480x2.Idx → EReal) (ix2 k o) = (m ((c : Thread nD τ).loc main_arg2)) (ix2 o k) := by
  have e : (V m c main_v3 : S20480x2.Idx → EReal)
      = truncf (F := Ideal) .bf16 (transpose S20480x2 [1, 0] (m ((c : Thread nD τ).loc main_arg2)) transposes_S2x20480_S20480x2_1_0) bitsLt_bf16_f32 := by
    dsimp only [V, hostOps0]; after_results
  rw [e]
  exact transpose_ix2_apply (m ((c : Thread nD τ).loc main_arg2)) transposes_S2x20480_S20480x2_1_0 k o

/-- The transposed output weights at `(n, o)` are the output weights at `(o, n)`. -/
theorem outT_apply (c : Dev nD) (n : Fin 128) (o : Fin 2) :
    (V m c main_v5 : S128x2.Idx → EReal) (ix2 n o) = (m ((c : Thread nD τ).loc main_arg5)) (ix2 o n) := by
  have e : (V m c main_v5 : S128x2.Idx → EReal)
      = truncf (F := Ideal) .bf16 (transpose S128x2 [1, 0] (m ((c : Thread nD τ).loc main_arg5)) transposes_S2x128_S128x2_1_0) bitsLt_bf16_f32 := by
    dsimp only [V, hostOps0]; after_results
  rw [e]
  exact transpose_ix2_apply (m ((c : Thread nD τ).loc main_arg5)) transposes_S2x128_S128x2_1_0 n o

/-- The bias as one row, at `(0, n)`, is the bias at `n`. -/
theorem biasRow_apply (c : Dev nD) (n : Fin 128) :
    (V m c main_v6 : S1x128.Idx → EReal) (ix2 (0 : Fin 1) n) = (m ((c : Thread nD τ).loc main_arg4)) (ix1 n) := by
  have e : (V m c main_v6 : S1x128.Idx → EReal) = shapeCast S1x128 (m ((c : Thread nD τ).loc main_arg4)) shapeCasts_S128_S1x128 := by
    dsimp only [V, hostOps0]; after_results; rfl
  rw [e]
  exact shapeCast_a_1a_apply (m ((c : Thread nD τ).loc main_arg4)) shapeCasts_S128_S1x128 (0 : Fin 1) n

/-! ## Each window's block at a point, entry by entry -/

/-- Row `p` of the white block at point `t` is row `64·t + p` of the white features. -/
theorem white_block (c : Dev nD) (t : Fin cfg0.N) (p : Fin 64) (r : Fin 4096) (hr : r.val = 64 * t.val + p.val) :
    (fun k : Fin 20480 => (iblk m c 0 t : Vec Ideal S64x20480 .f32) (ix2 p k)) = featRow (m ((c : Thread nD τ).loc main_arg0)) r := by
  obtain ⟨e0, e1, -⟩ := idx_facts t
  funext k
  show V m c main_arg0 (((cfg0.win 0).blk t).view.emb (ix2 p k)) = (m ((c : Thread nD τ).loc main_arg0)) (ix2 r k)
  rw [V_main_arg0]
  refine congrArg _ (funext fun a => Fin.ext ?_)
  match a with
  | ⟨0, _⟩ => show win0_0.index t (0 : Fin 2) * 64 + 1 * p.val = r.val; omega
  | ⟨1, _⟩ => show win0_0.index t (1 : Fin 2) * 20480 + 1 * k.val = k.val; omega

/-- Row `p` of the black block at point `t` is row `64·t + p` of the black features. -/
theorem black_block (c : Dev nD) (t : Fin cfg0.N) (p : Fin 64) (r : Fin 4096) (hr : r.val = 64 * t.val + p.val) :
    (fun k : Fin 20480 => (iblk m c 1 t : Vec Ideal S64x20480 .f32) (ix2 p k)) = featRow (m ((c : Thread nD τ).loc main_arg1)) r := by
  obtain ⟨-, -, e0, e1, -⟩ := idx_facts t
  funext k
  show V m c main_arg1 (((cfg0.win 1).blk t).view.emb (ix2 p k)) = (m ((c : Thread nD τ).loc main_arg1)) (ix2 r k)
  rw [V_main_arg1]
  refine congrArg _ (funext fun a => Fin.ext ?_)
  match a with
  | ⟨0, _⟩ => show win0_1.index t (0 : Fin 2) * 64 + 1 * p.val = r.val; omega
  | ⟨1, _⟩ => show win0_1.index t (1 : Fin 2) * 20480 + 1 * k.val = k.val; omega

/-- The accumulator-weight block at any point is the accumulator weights, features × accumulators. -/
theorem acc_block (c : Dev nD) (t : Fin cfg0.N) :
    (fun (k : Fin 20480) (n : Fin 128) => (iblk m c 2 t : Vec Ideal S20480x128 .bf16) (ix2 k n)) = accWeights (m ((c : Thread nD τ).loc main_arg3)) := by
  obtain ⟨-, -, -, -, e0, e1, -⟩ := idx_facts t
  funext k n
  have hi : ((cfg0.win 2).blk t).view.emb (ix2 k n) = (ix2 k n : S20480x128.Idx) := funext fun a => Fin.ext (by
    match a with
    | ⟨0, _⟩ => show win0_2.index t (0 : Fin 2) * 20480 + 1 * k.val = k.val; omega
    | ⟨1, _⟩ => show win0_2.index t (1 : Fin 2) * 128 + 1 * n.val = n.val; omega)
  show V m c main_v1 (((cfg0.win 2).blk t).view.emb (ix2 k n)) = (m ((c : Thread nD τ).loc main_arg3)) (ix2 n k)
  rw [hi]
  exact accT_apply m c k n

/-- Column `q` of the piece-square block at any point is row `q` of the piece-square weights. -/
theorem psq_block (c : Dev nD) (t : Fin cfg0.N) (q : Fin 2) :
    (fun k : Fin 20480 => (iblk m c 3 t : Vec Ideal S20480x2 .bf16) (ix2 k q)) = psqRow (m ((c : Thread nD τ).loc main_arg2)) q := by
  obtain ⟨-, -, -, -, -, -, e0, e1, -⟩ := idx_facts t
  funext k
  have hi : ((cfg0.win 3).blk t).view.emb (ix2 k q) = (ix2 k q : S20480x2.Idx) := funext fun a => Fin.ext (by
    match a with
    | ⟨0, _⟩ => show win0_3.index t (0 : Fin 2) * 20480 + 1 * k.val = k.val; omega
    | ⟨1, _⟩ => show win0_3.index t (1 : Fin 2) * 2 + 1 * q.val = q.val; omega)
  show V m c main_v3 (((cfg0.win 3).blk t).view.emb (ix2 k q)) = (m ((c : Thread nD τ).loc main_arg2)) (ix2 q k)
  rw [hi]
  exact psqT_apply m c k q

/-- Column `q` of the output-weight block at any point is row `q` of the output weights. -/
theorem out_block (c : Dev nD) (t : Fin cfg0.N) (q : Fin 2) :
    (fun n : Fin 128 => (iblk m c 4 t : Vec Ideal S128x2 .bf16) (ix2 n q)) = outRow (m ((c : Thread nD τ).loc main_arg5)) q := by
  obtain ⟨-, -, -, -, -, -, -, -, e0, e1, -⟩ := idx_facts t
  funext n
  have hi : ((cfg0.win 4).blk t).view.emb (ix2 n q) = (ix2 n q : S128x2.Idx) := funext fun a => Fin.ext (by
    match a with
    | ⟨0, _⟩ => show win0_4.index t (0 : Fin 2) * 128 + 1 * n.val = n.val; omega
    | ⟨1, _⟩ => show win0_4.index t (1 : Fin 2) * 2 + 1 * q.val = q.val; omega)
  show V m c main_v5 (((cfg0.win 4).blk t).view.emb (ix2 n q)) = (m ((c : Thread nD τ).loc main_arg5)) (ix2 q n)
  rw [hi]
  exact outT_apply m c n q

/-- The bias block's one row at any point is the bias. -/
theorem bias_block (c : Dev nD) (t : Fin cfg0.N) :
    (fun n : Fin 128 => (iblk m c 5 t : Vec Ideal S1x128 .f32) (ix2 (0 : Fin 1) n)) = accBias (m ((c : Thread nD τ).loc main_arg4)) := by
  obtain ⟨-, -, -, -, -, -, -, -, -, -, e0, e1, -⟩ := idx_facts t
  funext n
  have hi : ((cfg0.win 5).blk t).view.emb (ix2 (0 : Fin 1) n) = (ix2 (0 : Fin 1) n : S1x128.Idx) := funext fun a => Fin.ext (by
    match a with
    | ⟨0, _⟩ => show win0_5.index t (0 : Fin 2) * 1 + 1 * 0 = 0; omega
    | ⟨1, _⟩ => show win0_5.index t (1 : Fin 2) * 128 + 1 * n.val = n.val; omega)
  show V m c main_v6 (((cfg0.win 5).blk t).view.emb (ix2 (0 : Fin 1) n)) = (m ((c : Thread nD τ).loc main_arg4)) (ix1 n)
  rw [hi]
  exact biasRow_apply m c n

/-! ## What a point writes back, and the array after the run -/

/-- Point `t` writes back block `t` of the specification. -/
theorem flushed_eq (c : Dev nD) (t : Fin cfg0.N) :
    (dats m 0 c).flushed 6 t = ((cfg0.win 6).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed6]
  unfold out0_6
  rw [View.canon_unit_zero hz]
  simp only [View.ld_unit_zero (S := S20480x128) hz, View.ld_unit_zero (S := S20480x2) hz, View.ld_unit_zero (S := S128x2) hz,
    View.ld_unit_zero (S := S1x128) hz, View.ld_unit_zero (S := S64x20480) hz]
  funext j
  obtain ⟨-, -, -, -, -, -, -, -, -, -, -, -, o0, o1⟩ := idx_facts t
  have ht := point_lt t
  have hp : (j 0).val < 64 := (j 0).isLt
  have hq : (j 1).val < 2 := (j 1).isLt
  have hin : (win0 6).xinj (grid0.coords t) j = (ix2 (⟨(j 0).val, hp⟩ : Fin 64) (⟨(j 1).val, hq⟩ : Fin 2) : S64x2.Idx) :=
    funext fun a => by match a with | ⟨0, _⟩ => rfl | ⟨1, _⟩ => rfl
  have hout : ((cfg0.win 6).blk t).view.emb j
      = (ix2 (⟨64 * t.val + (j 0).val, by omega⟩ : Fin 4096) (⟨(j 1).val, hq⟩ : Fin 2) : S4096x2.Idx) := funext fun a => Fin.ext (by
    match a with
    | ⟨0, _⟩ => show win0_6.index t (0 : Fin 2) * 64 + 1 * (j 0).val = 64 * t.val + (j 0).val; omega
    | ⟨1, _⟩ => show win0_6.index t (1 : Fin 2) * 2 + 1 * (j 1).val = (j 1).val; omega)
  refine (congrArg (k0_pay1 (F := Ideal) (iblk m c 2 t) (iblk m c 3 t) (iblk m c 4 t) (iblk m c 5 t) (iblk m c 0 t) (iblk m c 1 t)) hin).trans ?_
  refine (Body.payload_apply (iblk m c 2 t) (iblk m c 3 t) (iblk m c 4 t) (iblk m c 5 t) (iblk m c 0 t) (iblk m c 1 t) _ _).trans ?_
  show _ = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (((cfg0.win 6).blk t).view.emb j)
  rw [hout]
  show _ = entryBySide (featRow (m ((c : Thread nD τ).loc main_arg0)) _) (featRow (m ((c : Thread nD τ).loc main_arg1)) _) (psqRow (m ((c : Thread nD τ).loc main_arg2)) _)
    (accWeights (m ((c : Thread nD τ).loc main_arg3))) (accBias (m ((c : Thread nD τ).loc main_arg4))) (outRow (m ((c : Thread nD τ).loc main_arg5)) _)
  rw [white_block m c t ⟨(j 0).val, hp⟩ ⟨64 * t.val + (j 0).val, by omega⟩ rfl, black_block m c t ⟨(j 0).val, hp⟩ ⟨64 * t.val + (j 0).val, by omega⟩ rfl,
    psq_block m c t, acc_block m c t, bias_block m c t, out_block m c t]

/-- The blocks cover the array (row `r` is in the block of point `r / 64`), so after the run the result array is
    the specification. -/
theorem final (c : Dev nD) : (dats m 0 c).arrAt 6 cfg0.N = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 6 _ (fun t _ => flushed_eq m c t) fun i => by
    have hi0 : (i 0).val < 4096 := (i 0).isLt
    have hi1 : (i 1).val < 2 := (i 1).isLt
    have hN : (i 0).val / 64 < cfg0.N := by show _ < grid0.N; rw [N_0]; omega
    obtain ⟨-, -, -, -, -, -, -, -, -, -, -, -, o0, o1⟩ := idx_facts ⟨(i 0).val / 64, hN⟩
    refine ⟨⟨(i 0).val / 64, hN⟩, flush0_6 _, ?_⟩
    show i ∈ ((View.whole main_v7).slice (win0_6.rect ⟨(i 0).val / 64, hN⟩)).set
    rw [View.set_slice_whole, Rect.mem_set_unit]
    intro a
    match a with
    | ⟨0, _⟩ =>
      show win0_6.index ⟨(i 0).val / 64, hN⟩ (0 : Fin 2) * 64 ≤ (i 0).val ∧ (i 0).val < win0_6.index ⟨(i 0).val / 64, hN⟩ (0 : Fin 2) * 64 + 64
      rw [o0]; show (i 0).val / 64 * 64 ≤ (i 0).val ∧ (i 0).val < (i 0).val / 64 * 64 + 64; omega
    | ⟨1, _⟩ =>
      show win0_6.index ⟨(i 0).val / 64, hN⟩ (1 : Fin 2) * 2 ≤ (i 1).val ∧ (i 1).val < win0_6.index ⟨(i 0).val / 64, hN⟩ (1 : Fin 2) * 2 + 2
      rw [o1]; omega

/-- The run, read: the result array ends at the specification of the arguments, the arguments unchanged. -/
theorem run : θ_run defs (onTc (τ := τ) (main (F := Ideal))) ⟨m, fun _ => 0, ρ⟩ fun r => ∀ c : Dev nD,
      r.2.mem ((c : Thread nD τ).loc main_v7) = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Nnue.Kernel

end
-- ==== Proof.lean ====
/-
  The certificate: an efficiently-updatable-network evaluation kernel against its reference, over the extended reals.

  Both programs compute, for each of 4096 positions and each of 2 output columns, a white-side value minus a
  black-side value. A side's value is a piece-square term (its feature row against a row of the piece-square
  weights) plus a head term (its feature row against the accumulator weights, plus the bias, clipped to
  `[0, 1]`, then against a row of the output weights). The kernel, on a grid of 64 blocks of 64 positions, forms
  (piece-square + head) per side and subtracts; the reference subtracts the piece-square terms and the head
  terms separately and adds the two differences. Changes of float format are the identity and each matrix
  product is the plain sum over its contracted axis, so the two differ only in that grouping, and the
  groupings agree because under the precondition every term is a real number: the features, the piece-square
  weights and the output weights are finite, and a clipped accumulator lies in `[0, 1]` whatever the accumulator
  weights and the bias are.

  The three frames are the generated ones (the reference's is its generated run with the result dropped); the
  idealization rewrote nothing, so it has nothing to preserve.
-/
import proofs.«153821_j43525198577726_1_alg».proof.Defs
import proofs.«153821_j43525198577726_1_alg».proof.Proof.Gen.Kernel
import proofs.«153821_j43525198577726_1_alg».proof.Proof.Gen.Kernel.Skeleton
import proofs.«153821_j43525198577726_1_alg».proof.Proof.Gen.Kernel.Launch
import proofs.«153821_j43525198577726_1_alg».proof.Proof.Gen.Kernel.Points
import proofs.«153821_j43525198577726_1_alg».proof.Proof.Gen.Kernel.Frame
import proofs.«153821_j43525198577726_1_alg».proof.Proof.Gen.KernelIdeal
import proofs.«153821_j43525198577726_1_alg».proof.Proof.Gen.KernelIdeal.Skeleton
import proofs.«153821_j43525198577726_1_alg».proof.Proof.Gen.KernelIdeal.Launch
import proofs.«153821_j43525198577726_1_alg».proof.Proof.Gen.KernelIdeal.Points
import proofs.«153821_j43525198577726_1_alg».proof.Proof.Gen.KernelIdeal.Frame
import proofs.«153821_j43525198577726_1_alg».proof.Proof.Gen.ReferenceIdeal
import proofs.«153821_j43525198577726_1_alg».proof.Proof.Gen.Pre_finite_inputs
import proofs.«153821_j43525198577726_1_alg».proof.Proof.Gen.KernelIdeal.Value
import proofs.«153821_j43525198577726_1_alg».proof.Proof.Gen.ReferenceIdeal.Run
import proofs.«153821_j43525198577726_1_alg».proof.Proof.Gen.ReferenceIdeal.Read
import proofs.«153821_j43525198577726_1_alg».proof.Proof.Finite
import proofs.«153821_j43525198577726_1_alg».proof.Proof.RefSide
import proofs.«153821_j43525198577726_1_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the specification grouped by side, the reference's at the specification
    grouped by term, of arguments that agree; under the precondition the two groupings are one array. -/
theorem algebraic : Cert.algebraic_KernelIdeal_ReferenceIdeal := by
  intro m ρ m' ρ' hpre hagree
  refine ⟨fun c => Cert.Nnue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.Nnue.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨hw, hb, hp, ho⟩ := Cert.Nnue.Finite.reals_of_pre _ _ _ _ _ _ (hpre c)
  rw [a0, a1, a2, a3, a4, a5]
  exact (Cert.ReferenceIdeal.Read.val_main_v22_eq _ _ _ _ _ _).trans
    ((Cert.Nnue.Ref.stage_eq _ _ _ _ _ _).trans (Cert.Nnue.result_eq_resultByTerm _ _ hw hb hp ho).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
